-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x32 : Shape := ⟨4, ![4, 64, 64, 32]⟩
abbrev S3x3x32x32 : Shape := ⟨4, ![3, 3, 32, 32]⟩
abbrev S_ : Shape := ⟨0, ![]⟩

class Facts : Prop where
  bcast_S_S4x64x64x32 : S_.BroadcastsInDim S4x64x64x32 (![] : Fin 0 → Fin S4x64x64x32.rank)
  reducesTo_S4x64x64x32_S_d0_1_2_3 : S4x64x64x32.ReducesTo [0, 1, 2, 3] S_
  h_S_ : 0 < S_.numel
  bcast_S_S3x3x32x32 : S_.BroadcastsInDim S3x3x32x32 (![] : Fin 0 → Fin S3x3x32x32.rank)
  reducesTo_S3x3x32x32_S_d0_1_2_3 : S3x3x32x32.ReducesTo [0, 1, 2, 3] S_

variable [Facts]

def fn {F : FTy → Type} [FloatOps F] (main_arg0 : FVec F S4x64x64x32 .f32) (main_arg1 : FVec F S3x3x32x32 .f32) : IVec S_ 1 :=
  let main_v0 : FVec F S4x64x64x32 .f32 := Host.absf main_arg0
  let main_cst : FVec F S_ .f32 := constant S_ .f32 0x7F800000#32
  let main_v1 : FVec F S4x64x64x32 .f32 := broadcastInDim S4x64x64x32 ![] bcast_S_S4x64x64x32 main_cst
  let main_v2 : IVec S4x64x64x32 1 := cmpf .olt main_v0 main_v1
  let main_c : IVec S_ 1 := constantI S_ 1 1#1
  let main_v3 : IVec S_ 1 := (fun x v => Host.reduce IntOp.andi x v reducesTo_S4x64x64x32_S_d0_1_2_3 h_S_) main_v2 main_c
  let main_v4 : FVec F S3x3x32x32 .f32 := Host.absf main_arg1
  let main_cst_0 : FVec F S_ .f32 := constant S_ .f32 0x7F800000#32
  let main_v5 : FVec F S3x3x32x32 .f32 := broadcastInDim S3x3x32x32 ![] bcast_S_S3x3x32x32 main_cst_0
  let main_v6 : IVec S3x3x32x32 1 := cmpf .olt main_v4 main_v5
  let main_c_1 : IVec S_ 1 := constantI S_ 1 1#1
  let main_v7 : IVec S_ 1 := (fun x v => Host.reduce IntOp.andi x v reducesTo_S3x3x32x32_S_d0_1_2_3 h_S_) main_v6 main_c_1
  let main_v8 : IVec S_ 1 := andi main_v3 main_v7
  main_v8
-- ==== Kernel.lean ====
abbrev S4x64x64x32 : Shape := ⟨4, ![4, 64, 64, 32]⟩
abbrev S3x3x32x32 : Shape := ⟨4, ![3, 3, 32, 32]⟩
abbrev S_ : Shape := ⟨0, ![]⟩
abbrev S4x66x66x32 : Shape := ⟨4, ![4, 66, 66, 32]⟩
abbrev S4x64x64x1x32 : Shape := ⟨5, ![4, 64, 64, 1, 32]⟩
abbrev S4x64x64x9x32 : Shape := ⟨5, ![4, 64, 64, 9, 32]⟩
abbrev S16384x288 : Shape := ⟨2, ![16384, 288]⟩
abbrev S288x32 : Shape := ⟨2, ![288, 32]⟩
abbrev S16384x32 : Shape := ⟨2, ![16384, 32]⟩
abbrev S512x288 : Shape := ⟨2, ![512, 288]⟩
abbrev S512x32 : Shape := ⟨2, ![512, 32]⟩
abbrev S32x32 : Shape := ⟨2, ![32, 32]⟩
abbrev S512x32x1 : Shape := ⟨3, ![512, 32, 1]⟩
abbrev S1x32x32 : Shape := ⟨3, ![1, 32, 32]⟩
abbrev S512x32x32 : Shape := ⟨3, ![512, 32, 32]⟩

abbrev nBuf : Space → Nat
  | .hbm => 28
  | .vmem => 5
  | .smem => 0
  | _ => 0

abbrev bufTy : (tb : Table) → Fin (tcTables nBuf tb) → BufTy
  | .hbm, ⟨0, _⟩ => ⟨S4x64x64x32, .f32⟩
  | .hbm, ⟨1, _⟩ => ⟨S3x3x32x32, .f32⟩
  | .hbm, ⟨2, _⟩ => ⟨S_, .i32⟩
  | .hbm, ⟨3, _⟩ => ⟨S_, .f32⟩
  | .hbm, ⟨4, _⟩ => ⟨S4x66x66x32, .f32⟩
  | .hbm, ⟨5, _⟩ => ⟨S4x64x64x32, .f32⟩
  | .hbm, ⟨6, _⟩ => ⟨S4x64x64x32, .f32⟩
  | .hbm, ⟨7, _⟩ => ⟨S4x64x64x32, .f32⟩
  | .hbm, ⟨8, _⟩ => ⟨S4x64x64x32, .f32⟩
  | .hbm, ⟨9, _⟩ => ⟨S4x64x64x32, .f32⟩
  | .hbm, ⟨10, _⟩ => ⟨S4x64x64x32, .f32⟩
  | .hbm, ⟨11, _⟩ => ⟨S4x64x64x32, .f32⟩
  | .hbm, ⟨12, _⟩ => ⟨S4x64x64x32, .f32⟩
  | .hbm, ⟨13, _⟩ => ⟨S4x64x64x32, .f32⟩
  | .hbm, ⟨14, _⟩ => ⟨S4x64x64x1x32, .f32⟩
  | .hbm, ⟨15, _⟩ => ⟨S4x64x64x1x32, .f32⟩
  | .hbm, ⟨16, _⟩ => ⟨S4x64x64x1x32, .f32⟩
  | .hbm, ⟨17, _⟩ => ⟨S4x64x64x1x32, .f32⟩
  | .hbm, ⟨18, _⟩ => ⟨S4x64x64x1x32, .f32⟩
  | .hbm, ⟨19, _⟩ => ⟨S4x64x64x1x32, .f32⟩
  | .hbm, ⟨20, _⟩ => ⟨S4x64x64x1x32, .f32⟩
  | .hbm, ⟨21, _⟩ => ⟨S4x64x64x1x32, .f32⟩
  | .hbm, ⟨22, _⟩ => ⟨S4x64x64x1x32, .f32⟩
  | .hbm, ⟨23, _⟩ => ⟨S4x64x64x9x32, .f32⟩
  | .hbm, ⟨24, _⟩ => ⟨S16384x288, .f32⟩
  | .hbm, ⟨25, _⟩ => ⟨S288x32, .f32⟩
  | .hbm, ⟨26, _⟩ => ⟨S16384x32, .f32⟩
  | .hbm, ⟨27, _⟩ => ⟨S4x64x64x32, .f32⟩
  | .local _ .vmem, ⟨0, _⟩ => ⟨S512x288, .f32⟩
  | .local _ .vmem, ⟨1, _⟩ => ⟨S512x288, .f32⟩
  | .local _ .vmem, ⟨2, _⟩ => ⟨S288x32, .f32⟩
  | .local _ .vmem, ⟨3, _⟩ => ⟨S512x32, .f32⟩
  | .local _ .vmem, ⟨4, _⟩ => ⟨S512x32, .f32⟩
  | _, _ => ⟨S4x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x64x64x32_S4x66x66x32_000_110_110_000 : S4x64x64x32.Pads (![0, 1, 1, 0] : Fin 4 → Nat) ![0, 1, 1, 0] ![0, 0, 0, 0] S4x66x66x32
  h_S_ : 0 < S_.numel
  slices_S4x66x66x32_S4x64x64x32_0_0_0_0 : S4x66x66x32.Slices ![0, 0, 0, 0] S4x64x64x32
  slices_S4x66x66x32_S4x64x64x32_0_0_1_0 : S4x66x66x32.Slices ![0, 0, 1, 0] S4x64x64x32
  slices_S4x66x66x32_S4x64x64x32_0_0_2_0 : S4x66x66x32.Slices ![0, 0, 2, 0] S4x64x64x32
  slices_S4x66x66x32_S4x64x64x32_0_1_0_0 : S4x66x66x32.Slices ![0, 1, 0, 0] S4x64x64x32
  slices_S4x66x66x32_S4x64x64x32_0_1_1_0 : S4x66x66x32.Slices ![0, 1, 1, 0] S4x64x64x32
  slices_S4x66x66x32_S4x64x64x32_0_1_2_0 : S4x66x66x32.Slices ![0, 1, 2, 0] S4x64x64x32
  slices_S4x66x66x32_S4x64x64x32_0_2_0_0 : S4x66x66x32.Slices ![0, 2, 0, 0] S4x64x64x32
  slices_S4x66x66x32_S4x64x64x32_0_2_1_0 : S4x66x66x32.Slices ![0, 2, 1, 0] S4x64x64x32
  slices_S4x66x66x32_S4x64x64x32_0_2_2_0 : S4x66x66x32.Slices ![0, 2, 2, 0] S4x64x64x32
  bcast_S4x64x64x32_S4x64x64x1x32_0_1_2_4 : S4x64x64x32.BroadcastsInDim S4x64x64x1x32 (![0, 1, 2, 4] : Fin 4 → Fin S4x64x64x1x32.rank)
  concatenates_S4x64x64x1x32_S4x64x64x1x32_S4x64x64x1x32_S4x64x64x1x32_S4x64x64x1x32_S4x64x64x1x32_S4x64x64x1x32_S4x64x64x1x32_S4x64x64x1x32_S4x64x64x9x32_d3 : Shape.Concatenates [S4x64x64x1x32, S4x64x64x1x32, S4x64x64x1x32, S4x64x64x1x32, S4x64x64x1x32, S4x64x64x1x32, S4x64x64x1x32, S4x64x64x1x32, S4x64x64x1x32] S4x64x64x9x32 3
  shapeCasts_S4x64x64x9x32_S16384x288 : S4x64x64x9x32.ShapeCasts S16384x288
  shapeCasts_S3x3x32x32_S288x32 : S3x3x32x32.ShapeCasts S288x32
  inb_S512x288_S512x288_0_0 : ∀ a, (![0, 0] : Fin 2 → Nat) a + S512x288.size a ≤ S512x288.size a
  h_S512x288 : 0 < S512x288.numel
  shapeCasts_S512x288_S512x288 : S512x288.ShapeCasts S512x288
  inb_S288x32_S288x32_0_0 : ∀ a, (![0, 0] : Fin 2 → Nat) a + S288x32.size a ≤ S288x32.size a
  h_S288x32 : 0 < S288x32.numel
  shapeCasts_S288x32_S288x32 : S288x32.ShapeCasts S288x32
  slices_S512x288_o0_0_S512x32 : S512x288.Slices ![0, 0] S512x32
  slices_S288x32_o0_0_S32x32 : S288x32.Slices ![0, 0] S32x32
  shapeCasts_S512x32_S512x32x1 : S512x32.ShapeCasts S512x32x1
  shapeCasts_S32x32_S1x32x32 : S32x32.ShapeCasts S1x32x32
  broadcasts_S512x32x1_S512x32x32 : S512x32x1.Broadcasts S512x32x32
  broadcasts_S1x32x32_S512x32x32 : S1x32x32.Broadcasts S512x32x32
  reduces_S512x32x32_S512x32 : S512x32x32.Reduces [1] S512x32
  slices_S512x288_o0_32_S512x32 : S512x288.Slices ![0, 32] S512x32
  slices_S288x32_o32_0_S32x32 : S288x32.Slices ![32, 0] S32x32
  slices_S512x288_o0_64_S512x32 : S512x288.Slices ![0, 64] S512x32
  slices_S288x32_o64_0_S32x32 : S288x32.Slices ![64, 0] S32x32
  slices_S512x288_o0_96_S512x32 : S512x288.Slices ![0, 96] S512x32
  slices_S288x32_o96_0_S32x32 : S288x32.Slices ![96, 0] S32x32
  slices_S512x288_o0_128_S512x32 : S512x288.Slices ![0, 128] S512x32
  slices_S288x32_o128_0_S32x32 : S288x32.Slices ![128, 0] S32x32
  slices_S512x288_o0_160_S512x32 : S512x288.Slices ![0, 160] S512x32
  slices_S288x32_o160_0_S32x32 : S288x32.Slices ![160, 0] S32x32
  slices_S512x288_o0_192_S512x32 : S512x288.Slices ![0, 192] S512x32
  slices_S288x32_o192_0_S32x32 : S288x32.Slices ![192, 0] S32x32
  slices_S512x288_o0_224_S512x32 : S512x288.Slices ![0, 224] S512x32
  slices_S288x32_o224_0_S32x32 : S288x32.Slices ![224, 0] S32x32
  slices_S512x288_o0_256_S512x32 : S512x288.Slices ![0, 256] S512x32
  slices_S288x32_o256_0_S32x32 : S288x32.Slices ![256, 0] S32x32
  inb_S512x32_S512x32_0_0 : ∀ a, (![0, 0] : Fin 2 → Nat) a + S512x32.size a ≤ S512x32.size a
  h_S512x32 : 0 < S512x32.numel
  shapeCasts_S16384x32_S4x64x64x32 : S16384x32.ShapeCasts S4x64x64x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x288.size a ≤ S16384x288.size a
  hwx0_0 : ∀ i : grid0.Coords, EltTy.bits .f32 = 32 ∨ (Rect.block (s := S16384x288) S512x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S288x32.size a ≤ S288x32.size a
  hwx0_1 : ∀ i : grid0.Coords, EltTy.bits .f32 = 32 ∨ (Rect.block (s := S288x32) S288x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)

variable [Facts₀]

abbrev win0_0 : Pipeline.Window sig grid0 :=
  Pipeline.Window.ofSpec (Memref.whole main_v20) S512x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S288x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x64x32 : Shape := ⟨4, ![4, 64, 64, 32]⟩
abbrev S3x3x32x32 : Shape := ⟨4, ![3, 3, 32, 32]⟩
abbrev S_ : Shape := ⟨0, ![]⟩
abbrev S4x66x66x32 : Shape := ⟨4, ![4, 66, 66, 32]⟩
abbrev S4x64x64x1x32 : Shape := ⟨5, ![4, 64, 64, 1, 32]⟩
abbrev S4x64x64x9x32 : Shape := ⟨5, ![4, 64, 64, 9, 32]⟩
abbrev S16384x288 : Shape := ⟨2, ![16384, 288]⟩
abbrev S288x32 : Shape := ⟨2, ![288, 32]⟩
abbrev S16384x288x1 : Shape := ⟨3, ![16384, 288, 1]⟩
abbrev S1x288x32 : Shape := ⟨3, ![1, 288, 32]⟩
abbrev S16384x288x32 : Shape := ⟨3, ![16384, 288, 32]⟩
abbrev S16384x32 : Shape := ⟨2, ![16384, 32]⟩

abbrev nBuf : Space → Nat
  | .hbm => 36
  | .vmem => 0
  | .smem => 0
  | _ => 0

abbrev bufTy : (tb : Table) → Fin (tcTables nBuf tb) → BufTy
  | .hbm, ⟨0, _⟩ => ⟨S4x64x64x32, .f32⟩
  | .hbm, ⟨1, _⟩ => ⟨S3x3x32x32, .f32⟩
  | .hbm, ⟨2, _⟩ => ⟨S_, .i32⟩
  | .hbm, ⟨3, _⟩ => ⟨S_, .f32⟩
  | .hbm, ⟨4, _⟩ => ⟨S4x66x66x32, .f32⟩
  | .hbm, ⟨5, _⟩ => ⟨S4x64x64x32, .f32⟩
  | .hbm, ⟨6, _⟩ => ⟨S4x64x64x32, .f32⟩
  | .hbm, ⟨7, _⟩ => ⟨S4x64x64x32, .f32⟩
  | .hbm, ⟨8, _⟩ => ⟨S4x64x64x32, .f32⟩
  | .hbm, ⟨9, _⟩ => ⟨S4x64x64x32, .f32⟩
  | .hbm, ⟨10, _⟩ => ⟨S4x64x64x32, .f32⟩
  | .hbm, ⟨11, _⟩ => ⟨S4x64x64x32, .f32⟩
  | .hbm, ⟨12, _⟩ => ⟨S4x64x64x32, .f32⟩
  | .hbm, ⟨13, _⟩ => ⟨S4x64x64x32, .f32⟩
  | .hbm, ⟨14, _⟩ => ⟨S4x64x64x1x32, .f32⟩
  | .hbm, ⟨15, _⟩ => ⟨S4x64x64x1x32, .f32⟩
  | .hbm, ⟨16, _⟩ => ⟨S4x64x64x1x32, .f32⟩
  | .hbm, ⟨17, _⟩ => ⟨S4x64x64x1x32, .f32⟩
  | .hbm, ⟨18, _⟩ => ⟨S4x64x64x1x32, .f32⟩
  | .hbm, ⟨19, _⟩ => ⟨S4x64x64x1x32, .f32⟩
  | .hbm, ⟨20, _⟩ => ⟨S4x64x64x1x32, .f32⟩
  | .hbm, ⟨21, _⟩ => ⟨S4x64x64x1x32, .f32⟩
  | .hbm, ⟨22, _⟩ => ⟨S4x64x64x1x32, .f32⟩
  | .hbm, ⟨23, _⟩ => ⟨S4x64x64x9x32, .f32⟩
  | .hbm, ⟨24, _⟩ => ⟨S16384x288, .f32⟩
  | .hbm, ⟨25, _⟩ => ⟨S288x32, .f32⟩
  | .hbm, ⟨26, _⟩ => ⟨S16384x288x1, .f32⟩
  | .hbm, ⟨27, _⟩ => ⟨S1x288x32, .f32⟩
  | .hbm, ⟨28, _⟩ => ⟨S16384x288x32, .f32⟩
  | .hbm, ⟨29, _⟩ => ⟨S16384x288x32, .f32⟩
  | .hbm, ⟨30, _⟩ => ⟨S16384x288x32, .f32⟩
  | .hbm, ⟨31, _⟩ => ⟨S16384x288x32, .f32⟩
  | .hbm, ⟨32, _⟩ => ⟨S_, .f32⟩
  | .hbm, ⟨33, _⟩ => ⟨S16384x32, .f32⟩
  | .hbm, ⟨34, _⟩ => ⟨S16384x32, .f32⟩
  | .hbm, ⟨35, _⟩ => ⟨S4x64x64x32, .f32⟩
  | _, _ => ⟨S4x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S4x64x64x32_S4x66x66x32_000_110_110_000 : S4x64x64x32.Pads (![0, 1, 1, 0] : Fin 4 → Nat) ![0, 1, 1, 0] ![0, 0, 0, 0] S4x66x66x32
  h_S_ : 0 < S_.numel
  slices_S4x66x66x32_S4x64x64x32_0_0_0_0 : S4x66x66x32.Slices ![0, 0, 0, 0] S4x64x64x32
  slices_S4x66x66x32_S4x64x64x32_0_0_1_0 : S4x66x66x32.Slices ![0, 0, 1, 0] S4x64x64x32
  slices_S4x66x66x32_S4x64x64x32_0_0_2_0 : S4x66x66x32.Slices ![0, 0, 2, 0] S4x64x64x32
  slices_S4x66x66x32_S4x64x64x32_0_1_0_0 : S4x66x66x32.Slices ![0, 1, 0, 0] S4x64x64x32
  slices_S4x66x66x32_S4x64x64x32_0_1_1_0 : S4x66x66x32.Slices ![0, 1, 1, 0] S4x64x64x32
  slices_S4x66x66x32_S4x64x64x32_0_1_2_0 : S4x66x66x32.Slices ![0, 1, 2, 0] S4x64x64x32
  slices_S4x66x66x32_S4x64x64x32_0_2_0_0 : S4x66x66x32.Slices ![0, 2, 0, 0] S4x64x64x32
  slices_S4x66x66x32_S4x64x64x32_0_2_1_0 : S4x66x66x32.Slices ![0, 2, 1, 0] S4x64x64x32
  slices_S4x66x66x32_S4x64x64x32_0_2_2_0 : S4x66x66x32.Slices ![0, 2, 2, 0] S4x64x64x32
  bcast_S4x64x64x32_S4x64x64x1x32_0_1_2_4 : S4x64x64x32.BroadcastsInDim S4x64x64x1x32 (![0, 1, 2, 4] : Fin 4 → Fin S4x64x64x1x32.rank)
  concatenates_S4x64x64x1x32_S4x64x64x1x32_S4x64x64x1x32_S4x64x64x1x32_S4x64x64x1x32_S4x64x64x1x32_S4x64x64x1x32_S4x64x64x1x32_S4x64x64x1x32_S4x64x64x9x32_d3 : Shape.Concatenates [S4x64x64x1x32, S4x64x64x1x32, S4x64x64x1x32, S4x64x64x1x32, S4x64x64x1x32, S4x64x64x1x32, S4x64x64x1x32, S4x64x64x1x32, S4x64x64x1x32] S4x64x64x9x32 3
  shapeCasts_S4x64x64x9x32_S16384x288 : S4x64x64x9x32.ShapeCasts S16384x288
  shapeCasts_S3x3x32x32_S288x32 : S3x3x32x32.ShapeCasts S288x32
  bcast_S16384x288_S16384x288x1_0_1 : S16384x288.BroadcastsInDim S16384x288x1 (![0, 1] : Fin 2 → Fin S16384x288x1.rank)
  bcast_S288x32_S1x288x32_1_2 : S288x32.BroadcastsInDim S1x288x32 (![1, 2] : Fin 2 → Fin S1x288x32.rank)
  bcast_S16384x288x1_S16384x288x32_0_1_2 : S16384x288x1.BroadcastsInDim S16384x288x32 (![0, 1, 2] : Fin 3 → Fin S16384x288x32.rank)
  bcast_S1x288x32_S16384x288x32_0_1_2 : S1x288x32.BroadcastsInDim S16384x288x32 (![0, 1, 2] : Fin 3 → Fin S16384x288x32.rank)
  reducesTo_S16384x288x32_S16384x32_d1 : S16384x288x32.ReducesTo [1] S16384x32
  shapeCasts_S16384x32_S4x64x64x32 : S16384x32.ShapeCasts S4x64x64x32

variable [Facts₀]

class Facts : Prop extends Facts₀ where

variable [Facts]
-- ==== Proof.FrameBits.lean ====
/-
  The frame of the word-level program, at any float instance: @main is a stretch of host operations (the padding, the nine
  shifted slices, their stacking and the two reshapes that make the patch matrix and the filter matrix), one pipelined
  region over 32 grid points, and one reshape of the region's result.

  The region's body reads its two input blocks whole, computes, and overwrites its output block whole, so after the
  body at a point the output's staging buffer holds one pure function of the two input blocks (`outBlock`), and the
  input buffers hold what they held. With that as the pipeline's proof data the library's launch theorem runs the
  whole of @main; the argument arrays are written by no host operation and staged by no window, so they end as
  launched.
-/
import proofs.«151672_j1795296330278_1_alg».proof.Proof.Gen.Kernel.Launch
import proofs.«151672_j1795296330278_1_alg».proof.Proof.Gen.Kernel.Skeleton
import proofs.«151672_j1795296330278_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before the
    region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the pipeline's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No host operation before the region writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The reshape after the region does not write the first argument array, and no window stages it: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch matrix's current staging buffer holds its 512-row block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The filter matrix's staging buffer holds the whole matrix at every point: it is fetched at the first point only and
    its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the library's frame post, read at
    the two argument arrays (which no window stages), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The body's accesses -/

/-- The whole patch block, the whole filter matrix, the whole output block. -/
abbrev rX : Rect S512x288 := Rect.unit (s := S512x288) ![0, 0] S512x288.size inb_S512x288_S512x288_0_0
abbrev rW : Rect S288x32 := Rect.unit (s := S288x32) ![0, 0] S288x32.size inb_S288x32_S288x32_0_0
abbrev rO : Rect S512x32 := Rect.unit (s := S512x32) ![0, 0] S512x32.size inb_S512x32_S512x32_0_0

/-! ## What the body leaves in the output block's buffer -/

/-- The output block's staging buffer after the body, from the two input blocks: its one store, of the body's
    arithmetic on the two loads. -/
def outBlock (x0 : Vec F S512x288 .f32) (x1 : Vec F S288x32 .f32) : Vec F S512x32 .f32 :=
  View.canon [⟨rO, k0_pay1 (k0_pay2 (View.ld x0 rX)) (k0_pay3 (View.ld x1 rW)) (k0_pay4 (View.ld x0 rX) (View.ld x1 rW)) (k0_pay5 (View.ld x1 rW)) (k0_pay6 (View.ld x0 rX))⟩]

/-- The one store covers the buffer. -/
theorem coverO (p0 : Vec F S512x32 .f32) (y : S512x32.Idx) :
    ∃ pc ∈ ([⟨rO, p0⟩] : List (View.Piece (Elt F) S512x32 .f32)), y ∈ pc.1.set :=
  View.cover_of_tiled [⟨rO, p0⟩] S512x32.size (by rfl) y

/-! ## The body's triple -/

set_option maxHeartbeats 1000000 in
/-- The kernel body on whole staging memrefs, the inputs' at contents `x0`, `x1` and the output's at anything, runs to a
    state holding the inputs' as they were and the output's at `outBlock x0 x1`. -/
theorem sound_kernel (c : Dev nD) (E : Set ℕ) (i : grid0.Coords) (arg1 : Memref sig .tc .vmem S512x288 .f32) (harg1 : arg1.IsWhole) (arg2 : Memref sig .tc .vmem S288x32 .f32) (harg2 : arg2.IsWhole) (arg3 : Memref sig .tc .vmem S512x32 .f32) (harg3 : arg3.IsWhole)
    (x0 : Vec F S512x288 .f32) (x1 : Vec F S288x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__l1_adder_kernel i arg1 harg1 arg2 harg2 arg3 harg3) K := by
  simp only [cc0__l1_adder_kernel_eq_skeleton]; unfold cc0__l1_adder_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (coverO _)

/-! ## The pipeline's proof data -/

/-- The proof data of the pipeline on core `c`: the arrays as the region finds them; after the body at point `t` each
    input's buffer at its block and the output's at `outBlock` of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the library computes from the proof data and every other buffer what the reshape
    after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.FrameIdeal.lean ====
/-
  The frame of the idealized program, at any float instance: @main is a stretch of host operations (the padding, the nine
  shifted slices, their stacking and the two reshapes that make the patch matrix and the filter matrix), one pipelined
  region over 32 grid points, and one reshape of the region's result.

  The region's body reads its two input blocks whole, computes, and overwrites its output block whole, so after the
  body at a point the output's staging buffer holds one pure function of the two input blocks (`outBlock`), and the
  input buffers hold what they held. With that as the pipeline's proof data the library's launch theorem runs the
  whole of @main; the argument arrays are written by no host operation and staged by no window, so they end as
  launched.
-/
import proofs.«151672_j1795296330278_1_alg».proof.Proof.Gen.KernelIdeal.Launch
import proofs.«151672_j1795296330278_1_alg».proof.Proof.Gen.KernelIdeal.Skeleton
import proofs.«151672_j1795296330278_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before the
    region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the pipeline's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No host operation before the region writes the first argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The reshape after the region does not write the first argument array, and no window stages it: it ends as
    launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument array. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch matrix's current staging buffer holds its 512-row block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The filter matrix's staging buffer holds the whole matrix at every point: it is fetched at the first point only and
    its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run of @main to the library's frame post, read at
    the two argument arrays (which no window stages), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The body's accesses -/

/-- The whole patch block, the whole filter matrix, the whole output block. -/
abbrev rX : Rect S512x288 := Rect.unit (s := S512x288) ![0, 0] S512x288.size inb_S512x288_S512x288_0_0
abbrev rW : Rect S288x32 := Rect.unit (s := S288x32) ![0, 0] S288x32.size inb_S288x32_S288x32_0_0
abbrev rO : Rect S512x32 := Rect.unit (s := S512x32) ![0, 0] S512x32.size inb_S512x32_S512x32_0_0

/-! ## What the body leaves in the output block's buffer -/

/-- The output block's staging buffer after the body, from the two input blocks: its one store, of the body's
    arithmetic on the two loads. -/
def outBlock (x0 : Vec F S512x288 .f32) (x1 : Vec F S288x32 .f32) : Vec F S512x32 .f32 :=
  View.canon [⟨rO, k0_pay1 (k0_pay2 (View.ld x0 rX)) (k0_pay3 (View.ld x1 rW)) (k0_pay4 (View.ld x0 rX) (View.ld x1 rW)) (k0_pay5 (View.ld x1 rW)) (k0_pay6 (View.ld x0 rX))⟩]

/-- The one store covers the buffer. -/
theorem coverO (p0 : Vec F S512x32 .f32) (y : S512x32.Idx) :
    ∃ pc ∈ ([⟨rO, p0⟩] : List (View.Piece (Elt F) S512x32 .f32)), y ∈ pc.1.set :=
  View.cover_of_tiled [⟨rO, p0⟩] S512x32.size (by rfl) y

/-! ## The body's triple -/

set_option maxHeartbeats 1000000 in
/-- The kernel body on whole staging memrefs, the inputs' at contents `x0`, `x1` and the output's at anything, runs to a
    state holding the inputs' as they were and the output's at `outBlock x0 x1`. -/
theorem sound_kernel (c : Dev nD) (E : Set ℕ) (i : grid0.Coords) (arg1 : Memref sig .tc .vmem S512x288 .f32) (harg1 : arg1.IsWhole) (arg2 : Memref sig .tc .vmem S288x32 .f32) (harg2 : arg2.IsWhole) (arg3 : Memref sig .tc .vmem S512x32 .f32) (harg3 : arg3.IsWhole)
    (x0 : Vec F S512x288 .f32) (x1 : Vec F S288x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__l1_adder_kernel i arg1 harg1 arg2 harg2 arg3 harg3) K := by
  simp only [cc0__l1_adder_kernel_eq_skeleton]; unfold cc0__l1_adder_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (coverO _)

/-! ## The pipeline's proof data -/

/-- The proof data of the pipeline on core `c`: the arrays as the region finds them; after the body at point `t` each
    input's buffer at its block and the output's at `outBlock` of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the library computes from the proof data and every other buffer what the reshape
    after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.AdderSpec.lean ====
/-
  The adder layer's value, stated once for both programs.

  For a patch matrix X of M rows and 288 columns and a filter matrix W of 288 rows and 32 columns the layer's
  output at (p, q) is the negated L1 distance between row p of X and column q of W:
      out (p, q) = -(sum over k < 288 of |X (p, k) - W (k, q)|),
  read on the extended reals, where |a| is max a (-a) and a sum of non-negative terms may be regrouped freely
  (addition of extended reals is commutative and associative without any finiteness side condition).
-/
import Idealize.ShloMosaic.PureOps.Ideal
import Idealize.ShloMosaic.Lib.ValueIdx

noncomputable section

namespace Cert.Adder

open Idealize.ShloMosaic Idealize.ShloMosaic.ValueIdx
open scoped BigOperators

/-- The absolute difference |a - b| on the extended reals, as the float operations spell it: max d (-d) of d = a - b. -/
def absd (a b : EReal) : EReal := max (a - b) (-(a - b))

/-- Entry (p, q) of the layer over M patch rows: minus the sum over the 288 patch positions of |X (p, k) - W (k, q)|. -/
def adderAt {M : ℕ} (X : (⟨2, ![M, 288]⟩ : Shape).Idx → EReal) (W : (⟨2, ![288, 32]⟩ : Shape).Idx → EReal)
    (p : Fin M) (q : Fin 32) : EReal :=
  -(∑ k : Fin 288, absd (X (ix2 p k)) (W (ix2 k q)))

/-- The layer's whole output over M patch rows. -/
def adder (M : ℕ) (X : (⟨2, ![M, 288]⟩ : Shape).Idx → EReal) (W : (⟨2, ![288, 32]⟩ : Shape).Idx → EReal) :
    (⟨2, ![M, 32]⟩ : Shape).Idx → EReal :=
  fun i => adderAt X W (i 0) (i 1)

theorem adder_apply {M : ℕ} (X : (⟨2, ![M, 288]⟩ : Shape).Idx → EReal) (W : (⟨2, ![288, 32]⟩ : Shape).Idx → EReal)
    (p : Fin M) (q : Fin 32) : adder M X W (ix2 p q) = adderAt X W p q := rfl

end Cert.Adder

end
-- ==== Proof.AdderPayload.lean ====
/-
  The kernel body's stored value, read at one output position.

  The body holds a block X of 512 patch rows by 288 patch positions and the whole filter matrix W of 288 positions
  by 32 filters. It cuts the 288 positions into nine chunks of 32. For the chunk that starts at position o it forms
  the [512, 32, 32] array whose entry (p, d, q) is |X (p, o + d) - W (o + d, q)| (the patch columns repeated along q,
  the filter rows repeated along p) and sums it along d. It adds the nine partial sums to zero, one after the other,
  and stores zero minus the total. On the extended reals sums regroup freely, so the stored value at (r, q) is
      -(sum over k < 288 of |X (r, k) - W (k, q)|),
  the layer's value there.

  The chunk is read once, for any start o with o + 32 ≤ 288; the nine chunks of the body are that reading at
  o = 0, 32, …, 256.
-/
import proofs.«151672_j1795296330278_1_alg».proof.Proof.AdderSpec
import proofs.«151672_j1795296330278_1_alg».proof.Proof.Gen.KernelIdeal.Skeleton
import Idealize.ShloMosaic.Lib.ValueLayout
import Idealize.ShloMosaic.PureOps.Ideal.Laws
import Mathlib.Algebra.BigOperators.Fin
import Mathlib.Data.Fintype.BigOperators

noncomputable section

namespace Cert.KernelIdeal.AdderPayload

open Idealize.ShloMosaic Idealize.ShloMosaic.ValueIdx Cert.KernelIdeal Cert.KernelIdeal.Gen
open scoped BigOperators

/-! ## One chunk of 32 patch positions -/

/-- A matrix viewed as a stack of one-entry columns reads, at (p, d, u), the matrix at (p, d). -/
theorem column_apply (x : S512x32.Idx → EReal) (hc : S512x32.ShapeCasts S512x32x1) (p : Fin 512) (d : Fin 32) (u : Fin 1) :
    shapeCast S512x32x1 x hc (ix3 p d u) = x (ix2 p d) :=
  shapeCast_apply x hc _ _ (by
    have hu : u.val = 0 := by omega
    rw [Shape.rowMajor_val_two, Shape.rowMajor_val_three]
    show p.val * 32 + d.val = (p.val * 32 + d.val) * 1 + u.val
    omega)

/-- The patch operand of a chunk at (p, d, q): the patch matrix at (p, o + d), whatever q. -/
theorem patch_apply (x1 : S512x288.Idx → EReal) (o : ℕ) (ho : o + 32 ≤ 288)
    (h1 : S512x288.Slices ![0, o] S512x32) (hc : S512x32.ShapeCasts S512x32x1) (hb : S512x32x1.Broadcasts S512x32x32)
    (p : Fin 512) (d q : Fin 32) :
    broadcastTo S512x32x32 (shapeCast S512x32x1 (extractStridedSlice S512x32 ![0, o] x1 h1) hc) hb (ix3 p d q)
      = x1 (ix2 p ⟨o + d.val, by omega⟩) := by
  refine (broadcastTo_apply _ hb (ix3 p d q) (ix3 p d (0 : Fin 1)) (fun a => ?_)).trans ?_
  · match a with
    | ⟨0, _⟩ => rfl
    | ⟨1, _⟩ => rfl
    | ⟨2, _⟩ => rfl
  · refine (column_apply _ hc p d 0).trans ?_
    exact slice2_axis1_apply o x1 h1 p d _ rfl

/-- The filter operand of a chunk at (p, d, q): the filter matrix at (o + d, q), whatever p. -/
theorem filter_apply (x3 : S288x32.Idx → EReal) (o : ℕ) (ho : o + 32 ≤ 288)
    (h3 : S288x32.Slices ![o, 0] S32x32) (hc : S32x32.ShapeCasts S1x32x32) (hb : S1x32x32.Broadcasts S512x32x32)
    (p : Fin 512) (d q : Fin 32) :
    broadcastTo S512x32x32 (shapeCast S1x32x32 (extractStridedSlice S32x32 ![o, 0] x3 h3) hc) hb (ix3 p d q)
      = x3 (ix2 ⟨o + d.val, by omega⟩ q) := by
  refine (broadcastTo_apply _ hb (ix3 p d q) (ix3 (0 : Fin 1) d q) (fun a => ?_)).trans ?_
  · match a with
    | ⟨0, _⟩ => rfl
    | ⟨1, _⟩ => rfl
    | ⟨2, _⟩ => rfl
  · refine (shapeCast_ab_1ab_apply _ hc 0 d q).trans ?_
    exact slice2_axis0_apply o x3 h3 d q _ rfl

/-- One chunk's partial sums as the body computes them: over the 32 patch positions from o on, the sum along the
    middle axis of |patch operand - filter operand|. -/
def chunk (x1 : FVec Ideal S512x288 .f32) (x3 : FVec Ideal S288x32 .f32) (o : ℕ)
    (h1 : S512x288.Slices ![0, o] S512x32) (h3 : S288x32.Slices ![o, 0] S32x32) : FVec Ideal S512x32 .f32 :=
  multiReduction (F := Ideal) .add [1] S512x32
    (absf (subf
      (broadcastTo S512x32x32 (shapeCast S512x32x1 (extractStridedSlice S512x32 ![0, o] x1 h1)
        shapeCasts_S512x32_S512x32x1) broadcasts_S512x32x1_S512x32x32)
      (broadcastTo S512x32x32 (shapeCast S1x32x32 (extractStridedSlice S32x32 ![o, 0] x3 h3)
        shapeCasts_S32x32_S1x32x32) broadcasts_S1x32x32_S512x32x32)))
    0x00000000#32 reduces_S512x32x32_S512x32 (.inl rfl) rfl

/-- The index of the [512, 32, 32] operand over output position (r, q) with d on the summed axis is (r, d, q). -/
theorem lift_eq (h : S512x32x32.Reduces [1] S512x32) (r : Fin 512) (q d : Fin 32) :
    h.lift (ix2 r q) d = ix3 r d q := by
  funext a
  match a with
  | ⟨0, _⟩ => exact Fin.ext rfl
  | ⟨1, _⟩ => exact Fin.ext rfl
  | ⟨2, _⟩ => exact Fin.ext rfl

/-- A chunk at output position (r, q): the sum over its 32 patch positions of |X (r, o + d) - W (o + d, q)|. -/
theorem chunk_apply (x1 : FVec Ideal S512x288 .f32) (x3 : FVec Ideal S288x32 .f32) (o : ℕ) (ho : o + 32 ≤ 288)
    (h1 : S512x288.Slices ![0, o] S512x32) (h3 : S288x32.Slices ![o, 0] S32x32) (r : Fin 512) (q : Fin 32) :
    chunk x1 x3 o h1 h3 (ix2 r q)
      = ∑ d : Fin 32, Cert.Adder.absd (x1 (ix2 r ⟨o + d.val, by omega⟩)) (x3 (ix2 ⟨o + d.val, by omega⟩ q)) := by
  unfold chunk
  refine (Ideal.multiReduction_add_single _ _ reduces_S512x32x32_S512x32 _ _ (ix2 r q)).trans ?_
  refine Finset.sum_congr rfl (fun (d : Fin 32) _ => ?_)
  refine (congrArg _ (lift_eq reduces_S512x32x32_S512x32 r q d)).trans ?_
  exact congrArg₂ (fun a b : EReal => max (a - b) (-(a - b)))
    (patch_apply x1 o ho h1 shapeCasts_S512x32_S512x32x1 broadcasts_S512x32x1_S512x32x32 r d q)
    (filter_apply x3 o ho h3 shapeCasts_S32x32_S1x32x32 broadcasts_S1x32x32_S512x32x32 r d q)

/-! ## The 288 patch positions as nine chunks of 32 -/

/-- A sum over the first n + 32 naturals is the sum over the first n plus the sum over the next 32. -/
theorem sum_range_step {M : Type*} [AddCommMonoid M] (g : ℕ → M) (n m : ℕ) (h : m = n + 32) :
    ∑ k ∈ Finset.range m, g k = ∑ k ∈ Finset.range n, g k + ∑ d : Fin 32, g (n + d.val) := by
  subst h
  rw [Finset.sum_range_add, Fin.sum_univ_eq_sum_range (fun d => g (n + d)) 32]

/-- A sum over 288 positions, in any commutative monoid, is the left-nested sum of its nine chunks of 32. -/
theorem sum_nine_chunks {M : Type*} [AddCommMonoid M] (g : ℕ → M) :
    ∑ k : Fin 288, g k.val
      = ∑ d : Fin 32, g (0 + d.val) + ∑ d : Fin 32, g (32 + d.val) + ∑ d : Fin 32, g (64 + d.val)
        + ∑ d : Fin 32, g (96 + d.val) + ∑ d : Fin 32, g (128 + d.val) + ∑ d : Fin 32, g (160 + d.val)
        + ∑ d : Fin 32, g (192 + d.val) + ∑ d : Fin 32, g (224 + d.val) + ∑ d : Fin 32, g (256 + d.val) := by
  rw [Fin.sum_univ_eq_sum_range g 288, sum_range_step g 256 288 rfl, sum_range_step g 224 256 rfl,
    sum_range_step g 192 224 rfl, sum_range_step g 160 192 rfl, sum_range_step g 128 160 rfl,
    sum_range_step g 96 128 rfl, sum_range_step g 64 96 rfl, sum_range_step g 32 64 rfl,
    sum_range_step g 0 32 rfl, Finset.range_zero, Finset.sum_empty, zero_add]

/-! ## The stored value -/

/-- The term of patch position k at output position (r, q), as a function of a natural number (zero past the last
    position, which no sum below reaches). -/
def term (X : FVec Ideal S512x288 .f32) (W : FVec Ideal S288x32 .f32) (r : Fin 512) (q : Fin 32) (k : ℕ) : EReal :=
  if h : k < 288 then Cert.Adder.absd (X (ix2 r ⟨k, h⟩)) (W (ix2 ⟨k, h⟩ q)) else 0

/-- At a patch position the term is |X (r, k) - W (k, q)|. -/
theorem term_of_lt (X : FVec Ideal S512x288 .f32) (W : FVec Ideal S288x32 .f32) (r : Fin 512) (q : Fin 32) (k : ℕ)
    (h : k < 288) : term X W r q k = Cert.Adder.absd (X (ix2 r ⟨k, h⟩)) (W (ix2 ⟨k, h⟩ q)) := by
  unfold term
  exact dif_pos h

/-- A chunk at (r, q) as a sum of those terms. -/
theorem chunk_apply_term (X : FVec Ideal S512x288 .f32) (W : FVec Ideal S288x32 .f32) (o : ℕ) (ho : o + 32 ≤ 288)
    (h1 : S512x288.Slices ![0, o] S512x32) (h3 : S288x32.Slices ![o, 0] S32x32) (r : Fin 512) (q : Fin 32) :
    chunk X W o h1 h3 (ix2 r q) = ∑ d : Fin 32, term X W r q (o + d.val) :=
  (chunk_apply X W o ho h1 h3 r q).trans
    (Finset.sum_congr rfl fun d _ => (term_of_lt X W r q (o + d.val) (by omega)).symm)

/-- The layer's value at (r, q) as minus the sum of those terms. -/
theorem adderAt_eq_term (X : FVec Ideal S512x288 .f32) (W : FVec Ideal S288x32 .f32) (r : Fin 512) (q : Fin 32) :
    Cert.Adder.adderAt (M := 512) X W r q = -(∑ k : Fin 288, term X W r q k.val) :=
  congrArg Neg.neg (Finset.sum_congr rfl fun k _ => (term_of_lt X W r q k.val k.isLt).symm)

/-- The accumulator after the first four chunks, at (r, q). -/
theorem acc4_apply (v0 : Vec Ideal S512x288 .f32) (v2 : Vec Ideal S288x32 .f32) (r : Fin 512) (q : Fin 32) :
    k0_pay4 (F := Ideal) v0 v2 (ix2 r q)
      = 0 + ∑ d : Fin 32, term v0 v2 r q (0 + d.val) + ∑ d : Fin 32, term v0 v2 r q (32 + d.val)
        + ∑ d : Fin 32, term v0 v2 r q (64 + d.val) + ∑ d : Fin 32, term v0 v2 r q (96 + d.val) := by
  have e2 : k0_pay2 (F := Ideal) v0 = v0 := shapeCast_self v0 _
  have e3 : k0_pay3 (F := Ideal) v2 = v2 := shapeCast_self v2 _
  refine (show k0_pay4 (F := Ideal) v0 v2 (ix2 r q)
      = Ideal.ofBits .f32 0x00000000#32
        + chunk (k0_pay2 v0) (k0_pay3 v2) 0 slices_S512x288_o0_0_S512x32 slices_S288x32_o0_0_S32x32 (ix2 r q)
        + chunk (k0_pay2 v0) (k0_pay3 v2) 32 slices_S512x288_o0_32_S512x32 slices_S288x32_o32_0_S32x32 (ix2 r q)
        + chunk (k0_pay2 v0) (k0_pay3 v2) 64 slices_S512x288_o0_64_S512x32 slices_S288x32_o64_0_S32x32 (ix2 r q)
        + chunk (k0_pay2 v0) (k0_pay3 v2) 96 slices_S512x288_o0_96_S512x32 slices_S288x32_o96_0_S32x32 (ix2 r q)
      from rfl).trans ?_
  rw [e2, e3, Ideal.ofBits_zero_f32,
    chunk_apply_term v0 v2 0 (by omega) _ _ r q, chunk_apply_term v0 v2 32 (by omega) _ _ r q,
    chunk_apply_term v0 v2 64 (by omega) _ _ r q, chunk_apply_term v0 v2 96 (by omega) _ _ r q]

/-- THE STORED VALUE AT (r, q): the body's nine partial sums, accumulated from zero and negated by a subtraction
    from zero, are the layer's value there. -/
theorem pay_apply (v0 : Vec Ideal S512x288 .f32) (v2 : Vec Ideal S288x32 .f32) (r : Fin 512) (q : Fin 32) :
    k0_pay1 (F := Ideal) (k0_pay2 v0) (k0_pay3 v2) (k0_pay4 v0 v2) (k0_pay5 v2) (k0_pay6 v0) (ix2 r q)
      = Cert.Adder.adderAt (M := 512) v0 v2 r q := by
  have e2 : k0_pay2 (F := Ideal) v0 = v0 := shapeCast_self v0 _
  have e3 : k0_pay3 (F := Ideal) v2 = v2 := shapeCast_self v2 _
  refine (show k0_pay1 (F := Ideal) (k0_pay2 v0) (k0_pay3 v2) (k0_pay4 v0 v2) (k0_pay5 v2) (k0_pay6 v0) (ix2 r q)
      = Ideal.ofBits .f32 0x00000000#32
        - (k0_pay4 (F := Ideal) v0 v2 (ix2 r q)
          + chunk (k0_pay2 v0) (k0_pay3 v2) 128 slices_S512x288_o0_128_S512x32 slices_S288x32_o128_0_S32x32 (ix2 r q)
          + chunk (k0_pay2 v0) (k0_pay3 v2) 160 slices_S512x288_o0_160_S512x32 slices_S288x32_o160_0_S32x32 (ix2 r q)
          + chunk (k0_pay2 v0) (k0_pay3 v2) 192 slices_S512x288_o0_192_S512x32 slices_S288x32_o192_0_S32x32 (ix2 r q)
          + chunk (k0_pay2 v0) (k0_pay3 v2) 224 slices_S512x288_o0_224_S512x32 slices_S288x32_o224_0_S32x32 (ix2 r q)
          + chunk (k0_pay2 v0) (k0_pay3 v2) 256 slices_S512x288_o0_256_S512x32 slices_S288x32_o256_0_S32x32 (ix2 r q))
      from rfl).trans ?_
  rw [e2, e3, Ideal.ofBits_zero_f32, acc4_apply,
    chunk_apply_term v0 v2 128 (by omega) _ _ r q, chunk_apply_term v0 v2 160 (by omega) _ _ r q,
    chunk_apply_term v0 v2 192 (by omega) _ _ r q, chunk_apply_term v0 v2 224 (by omega) _ _ r q,
    chunk_apply_term v0 v2 256 (by omega) _ _ r q, zero_add, zero_sub, adderAt_eq_term,
    sum_nine_chunks (term v0 v2 r q)]

end Cert.KernelIdeal.AdderPayload

end
-- ==== Proof.AdderKernel.lean ====
/-
  The idealized kernel program's result is the specification of the patch and filter matrices it forms.

  At grid point t the pipeline hands the body rows 512 t .. 512 t + 511 of the patch matrix X and the whole filter
  matrix W, and writes the body's output block back to rows 512 t .. 512 t + 511 of the result. The body's stored
  value at (r, q) is the layer's value of its two blocks at (r, q), which depends on row r of the patch block and
  column q of W only: it is therefore the layer's value of X and W at (512 t + r, q). The 32 blocks tile the 16384
  rows, so the result array ends as the layer's value of X and W everywhere; the reshape after the region lays it
  out as [4, 64, 64, 32].
-/
import proofs.«151672_j1795296330278_1_alg».proof.Proof.FrameIdeal
import proofs.«151672_j1795296330278_1_alg».proof.Proof.AdderPayload
import proofs.«151672_j1795296330278_1_alg».proof.Proof.AdderSpec
import Idealize.ShloMosaic.Lib.Pipeline.Value
import Idealize.ShloMosaic.Lib.ValueIdx
import Idealize.ShloMosaic.Lib.StableHlo.Run

set_option maxRecDepth 16384

noncomputable section

namespace Cert.KernelIdeal.AdderKernel

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.AdderPayload (pay_apply)

variable (m : (ℓ : Loc nD τ sig) → Buf (Elt Ideal) ℓ) (ρ : Dev nD → PrngReg)

theorem hz : (![0, 0] : Fin 2 → Nat) = fun _ => 0 := funext fun a => by fin_cases a <;> rfl

/-- The patch matrix and the filter matrix as the region finds them. -/
abbrev patches (c : Dev nD) : (⟨2, ![16384, 288]⟩ : Shape).Idx → EReal := V m c main_v20
abbrev filters (c : Dev nD) : (⟨2, ![288, 32]⟩ : Shape).Idx → EReal := V m c main_v21

/-- The index maps over the grid: at point t the patch block and the output block are row block t, the filter block
    is the whole matrix, and no window moves along its second axis. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the layer's value of the two matrices. -/
theorem flushed_eq (c : Dev nD) (t : Fin cfg0.N) :
    (dats m 0 c).flushed 2 t = ((cfg0.win 2).blk t).view.read (Elt Ideal) (Cert.Adder.adder 16384 (patches m c) (filters m c)) := by
  show (cfg0.win 2).cut (grid0.coords t) ((dats m 0 c).after 2 t) = _
  rw [after0_2]
  unfold outBlock
  rw [View.canon_unit_zero hz]
  simp only [View.ld_unit_zero (S := S512x288) hz, View.ld_unit_zero (S := S288x32) hz]
  obtain ⟨e0, e1, e2, e3, e4, e5⟩ := idx_facts t
  funext j
  obtain ⟨r, q, rfl⟩ : ∃ (r : Fin 512) (q : Fin 32), j = ix2 r q := ⟨j 0, j 1, eq_ix2 j⟩
  refine (pay_apply (iblk m c 0 t) (iblk m c 1 t) r q).trans ?_
  show _ = Cert.Adder.adder 16384 (patches m c) (filters m c) (((cfg0.win 2).blk t).view.emb (ix2 r q))
  unfold Cert.Adder.adder Cert.Adder.adderAt
  refine congrArg (fun s => -s) (Finset.sum_congr rfl fun k _ => ?_)
  have h0 : ((cfg0.win 0).blk t).view.emb (ix2 r k) = ix2 ((((cfg0.win 2).blk t).view.emb (ix2 r q)) 0) k := by
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 288 + 1 * k.val = k.val; omega
  have h1 : ((cfg0.win 1).blk t).view.emb (ix2 k q) = ix2 k ((((cfg0.win 2).blk t).view.emb (ix2 r q)) 1) := by
    funext a; apply Fin.ext
    match a with
    | ⟨0, _⟩ => show win0_1.index t (0 : Fin 2) * 288 + 1 * k.val = k.val; omega
    | ⟨1, _⟩ => show win0_1.index t (1 : Fin 2) * 32 + 1 * q.val = win0_2.index t (1 : Fin 2) * 32 + 1 * q.val; omega
  show Cert.Adder.absd (V m c main_v20 (((cfg0.win 0).blk t).view.emb (ix2 r k))) (V m c main_v21 (((cfg0.win 1).blk t).view.emb (ix2 k q))) = _
  rw [h0, h1]
  rfl

/-- An index of the result array lies in point t's block iff each coordinate lies in the block's range on its axis. -/
theorem mem_blk (t : Fin cfg0.N) (i : S16384x32.Idx) :
    i ∈ ((cfg0.win 2).blk t).view.set ↔ ∀ a : Fin 2, win0_2.index t a * S512x32.size a ≤ (i a).val ∧ (i a).val < win0_2.index t a * S512x32.size a + S512x32.size a := by
  show i ∈ ((View.whole main_v22).slice (win0_2.rect t)).set ↔ _
  rw [View.set_slice_whole, Rect.mem_set_unit]
  exact Iff.rfl

/-- The 32 row blocks tile the result: row p lies in block p / 512. -/
theorem cover (i : S16384x32.Idx) : ∃ t : Fin cfg0.N, (cfg0.win 2).flush t = true ∧ i ∈ ((cfg0.win 2).blk t).view.set := by
  have hi0 : (i 0).val < 16384 := (i 0).isLt
  have hi1 : (i 1).val < 32 := (i 1).isLt
  refine ⟨⟨(i 0).val / 512, by show (i 0).val / 512 < 32; omega⟩, flush0_2 _, ?_⟩
  rw [mem_blk]
  obtain ⟨e0, e1, e2, e3, e4, e5⟩ := idx_facts ⟨(i 0).val / 512, by show (i 0).val / 512 < 32; omega⟩
  intro a
  match a with
  | ⟨0, _⟩ => show win0_2.index _ (0 : Fin 2) * 512 ≤ (i 0).val ∧ (i 0).val < win0_2.index _ (0 : Fin 2) * 512 + 512; rw [e4]; show (i 0).val / 512 * 512 ≤ (i 0).val ∧ (i 0).val < (i 0).val / 512 * 512 + 512; omega
  | ⟨1, _⟩ => show win0_2.index _ (1 : Fin 2) * 32 ≤ (i 1).val ∧ (i 1).val < win0_2.index _ (1 : Fin 2) * 32 + 32; rw [e5]; omega

/-- The result array after the region: the layer's value of the two matrices. -/
theorem final (c : Dev nD) : (dats m 0 c).arrAt 2 cfg0.N = Cert.Adder.adder 16384 (patches m c) (filters m c) :=
  (dats m 0 c).arrAt_eq_of_cover 2 _ (fun t _ => flushed_eq m c t) (cover)

/-- The program's result buffer after the run: the result array laid out as [4, 64, 64, 32]. -/
theorem tail_eq (c : Dev nD) :
    Pipeline.afterTail₀ cfgs (dats m) 0 (V0 m) [hostOps1] c main_v23
      = shapeCast S4x64x64x32 (Cert.Adder.adder 16384 (patches m c) (filters m c)) shapeCasts_S16384x32_S4x64x64x32 := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.tc.devRef main_v22)
      = Cert.Adder.adder 16384 (patches m c) (filters m c) :=
    (Pipeline.withArrays_arr spec0 launch0.win.arr_inj c _ _ 2).trans (final m c)
  rw [e]
  rfl

/-- The idealized kernel program's run, read: the result buffer holds the reshaped layer's value of the patch and
    filter matrices, and the two arguments end as launched. -/
theorem run : θ_run defs (onTc (τ := τ) (main (F := Ideal))) ⟨m, fun _ => 0, ρ⟩ fun r => ∀ c : Dev nD,
      r.2.mem ((c.tc : Thread nD τ).loc main_v23)
        = shapeCast S4x64x64x32 (Cert.Adder.adder 16384 (patches m c) (filters m c)) shapeCasts_S16384x32_S4x64x64x32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v23 (Pipeline.mem_restRefs_of main_v23 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.AdderKernel

end
-- ==== Proof.AdderReference.lean ====
/-
  The reference program's value is the specification.

  The reference forms the patch matrix X (16384 rows, 288 columns) and the filter matrix W (288 rows, 32 columns),
  spreads both over the common index set (p, k, q) -- X along q, W along p --, subtracts, takes absolute values,
  sums over the middle index k starting from zero, and negates. Read at an output index (p, q) this is
      -(0 + sum over k < 288 of max (X (p, k) - W (k, q)) (-(X (p, k) - W (k, q)))),
  which is the layer's value at (p, q) once the leading zero is dropped. Nothing about X or W is used beyond their
  being functions on their index sets, so the two matrices stay as they are named.
-/
import proofs.«151672_j1795296330278_1_alg».proof.Proof.Gen.ReferenceIdeal.Read
import proofs.«151672_j1795296330278_1_alg».proof.Proof.AdderSpec

noncomputable section

namespace Cert.ReferenceIdeal.AdderReference

open Idealize.ShloMosaic Idealize.ShloMosaic.ValueIdx Cert.ReferenceIdeal Cert.ReferenceIdeal.Read
open scoped BigOperators

/-- The two spreading steps on the patch side, composed, read the patch matrix at (p, k): the third coordinate q is
    dropped and the unit axis in between contributes nothing. -/
theorem idx_patch (p : Fin 16384) (k : Fin 288) (q : Fin 32) :
    idx_main_v22 (idx_main_v24 (idx_main_v28 (ix2 p q) k)) = ix2 p k :=
  funext fun a => Fin.ext (by match a with | ⟨0, _⟩ => rfl | ⟨1, _⟩ => rfl)

/-- The two spreading steps on the filter side, composed, read the filter matrix at (k, q): the first coordinate p is
    dropped. -/
theorem idx_filter (p : Fin 16384) (k : Fin 288) (q : Fin 32) :
    idx_main_v23 (idx_main_v25 (idx_main_v28 (ix2 p q) k)) = ix2 k q :=
  funext fun a => Fin.ext (by match a with | ⟨0, _⟩ => rfl | ⟨1, _⟩ => rfl)

/-- One summand: at (p, k, q) the absolute value of the difference of the two spread operands is |X (p, k) - W (k, q)|. -/
theorem summand (x0 : (⟨S4x64x64x32, .f32⟩ : BufTy).Contents (Elt Ideal)) (x1 : (⟨S3x3x32x32, .f32⟩ : BufTy).Contents (Elt Ideal))
    (p : Fin 16384) (k : Fin 288) (q : Fin 32) :
    val_main_v27 (F := Ideal) x0 x1 (idx_main_v28 (ix2 p q) k)
      = Cert.Adder.absd (val_main_v20 (F := Ideal) x0 (ix2 p k)) (val_main_v21 (F := Ideal) x1 (ix2 k q)) := by
  rw [val_main_v27_apply, val_main_v26_apply, val_main_v24_apply, val_main_v22_apply, val_main_v25_apply,
    val_main_v23_apply, idx_patch, idx_filter]
  rfl

/-- The negated sum the reference computes is the layer's value over the patch and filter matrices. -/
theorem v29_eq (x0 : (⟨S4x64x64x32, .f32⟩ : BufTy).Contents (Elt Ideal)) (x1 : (⟨S3x3x32x32, .f32⟩ : BufTy).Contents (Elt Ideal)) :
    val_main_v29 (F := Ideal) x0 x1 = Cert.Adder.adder 16384 (val_main_v20 (F := Ideal) x0) (val_main_v21 (F := Ideal) x1) := by
  funext i
  obtain ⟨p, q, rfl⟩ : ∃ (p : Fin 16384) (q : Fin 32), i = ix2 p q := ⟨i 0, i 1, eq_ix2 i⟩
  rw [val_main_v29_apply, val_main_v28_apply, val_main_cst_apply, Cert.Adder.adder_apply]
  unfold Cert.Adder.adderAt
  rw [Ideal.ofBits_def, Ideal.ofBits_zero_f32, zero_add]
  exact congrArg (fun s => -s) (Finset.sum_congr rfl fun k _ => summand x0 x1 p k q)

end Cert.ReferenceIdeal.AdderReference

end
-- ==== Proof.AdderOperands.lean ====
/-
  The kernel program's two matrices are the reference's.

  Before its region the kernel program applies, to its two arguments, the same host operations as the reference: the
  zero constant converted to a float, the padding of the image by one cell on each side of its two spatial axes, the
  nine shifted 64 x 64 windows of the padded image, each given a unit axis, their stacking along that axis, and the
  reshape of the stack to the patch matrix of 16384 rows and 288 columns; and, on the other argument, the reshape of
  the filter to the filter matrix of 288 rows and 32 columns. So the contents the region finds in the two matrices'
  buffers are the terms the reference names for them, at the same arguments: the two sides are one composition of the
  same operations, written over two copies of the same literal shapes.

  The filter matrix is one reshape of an argument no operation writes. The patch matrix is read back in two steps, since
  the stack has nine operands and each of them is read through all the operations before it: the buffer contents after
  the first twenty-one operations are named once, each of the nine stacked operands is identified there with the
  reference's term for it, and the stack and the reshape are then applied to the nine.
-/
import proofs.«151672_j1795296330278_1_alg».proof.Proof.FrameIdeal
import proofs.«151672_j1795296330278_1_alg».proof.Proof.Gen.ReferenceIdeal.Read
import Idealize.ShloMosaic.Lib.StableHlo.Run

noncomputable section

namespace Cert.KernelIdeal.AdderOperands

open Idealize.ShloMosaic Idealize.ShloMosaic.TcCoe Idealize.SL.Sem Cert.KernelIdeal Cert.KernelIdeal.Gen

variable (m : (ℓ : Loc nD τ sig) → Buf (Elt Ideal) ℓ)

/-- Reads one buffer back through a line of operations, last operation first: at its own result buffer an operation
    leaves its function of its operands' contents, and at any other buffer what was there. -/
local macro "read_back" : tactic =>
  `(tactic| repeat (first
      | rw [StableHlo.nullary_result] | rw [StableHlo.unary_result] | rw [StableHlo.binary_result]
      | (rw [StableHlo.nullary_result_ne]; rotate_left; decide)
      | (rw [StableHlo.unary_result_ne]; rotate_left; decide)
      | (rw [StableHlo.binary_result_ne]; rotate_left; decide)))

/-- The filter matrix the region finds is the reference's: the one reshape of the second argument. -/
theorem filter_eq (c : Dev nD) :
    (Frm.V (F := Ideal) m c main_v21 : (⟨2, ![288, 32]⟩ : Shape).Idx → EReal)
      = Cert.ReferenceIdeal.Read.val_main_v21 (F := Ideal) (m ((c : Thread nD τ).loc main_arg1)) := by
  dsimp only [Frm.V, Frm.V0]
  simp only [hostOps0, hostOps0_1, hostOps0_2, List.flatten_cons, List.flatten_nil, List.append_nil, List.cons_append,
    List.nil_append]
  after_results
  unfold Cert.ReferenceIdeal.Read.val_main_v21
  rfl

/-- The patch matrix the region finds is the reference's: the reshape of the stack of the nine shifted windows of the
    padded first argument. -/
theorem patch_eq (c : Dev nD) :
    (Frm.V (F := Ideal) m c main_v20 : (⟨2, ![16384, 288]⟩ : Shape).Idx → EReal)
      = Cert.ReferenceIdeal.Read.val_main_v20 (F := Ideal) (m ((c : Thread nD τ).loc main_arg0)) := by
  dsimp only [Frm.V, Frm.V0]
  simp only [hostOps0, hostOps0_1, hostOps0_2, List.flatten_cons, List.flatten_nil, List.append_nil, List.cons_append,
    List.nil_append]
  simp only [StableHlo.after_cons, StableHlo.after_nil]
  -- the last three operations: the filter's reshape writes another buffer; the patch matrix is the reshape of the stack
  rw [StableHlo.reshape_result_ne]; rotate_left; decide
  rw [StableHlo.reshape_result, StableHlo.nary_result]
  -- the buffer contents after the first twenty-one operations, which each of the nine stacked operands is read from
  generalize hW : HloOp.result (StableHlo.unary main_v9 main_v18 _ _ _) _ = W
  -- operand j of the stack is window j of the padded argument with its unit axis
  have h10 : W (Proc.devRef .tc main_v10) = Cert.ReferenceIdeal.Read.val_main_v10 (F := Ideal) (m ((c : Thread nD τ).loc main_arg0)) := by
    rw [← hW]; read_back
    unfold Cert.ReferenceIdeal.Read.val_main_v10 Cert.ReferenceIdeal.Read.val_main_v1 Cert.ReferenceIdeal.Read.val_main_v0
      Cert.ReferenceIdeal.Read.val_main_call0_v0 Cert.ReferenceIdeal.Read.val_main_c
    rfl
  have h11 : W (Proc.devRef .tc main_v11) = Cert.ReferenceIdeal.Read.val_main_v11 (F := Ideal) (m ((c : Thread nD τ).loc main_arg0)) := by
    rw [← hW]; read_back
    unfold Cert.ReferenceIdeal.Read.val_main_v11 Cert.ReferenceIdeal.Read.val_main_v2 Cert.ReferenceIdeal.Read.val_main_v0
      Cert.ReferenceIdeal.Read.val_main_call0_v0 Cert.ReferenceIdeal.Read.val_main_c
    rfl
  have h12 : W (Proc.devRef .tc main_v12) = Cert.ReferenceIdeal.Read.val_main_v12 (F := Ideal) (m ((c : Thread nD τ).loc main_arg0)) := by
    rw [← hW]; read_back
    unfold Cert.ReferenceIdeal.Read.val_main_v12 Cert.ReferenceIdeal.Read.val_main_v3 Cert.ReferenceIdeal.Read.val_main_v0
      Cert.ReferenceIdeal.Read.val_main_call0_v0 Cert.ReferenceIdeal.Read.val_main_c
    rfl
  have h13 : W (Proc.devRef .tc main_v13) = Cert.ReferenceIdeal.Read.val_main_v13 (F := Ideal) (m ((c : Thread nD τ).loc main_arg0)) := by
    rw [← hW]; read_back
    unfold Cert.ReferenceIdeal.Read.val_main_v13 Cert.ReferenceIdeal.Read.val_main_v4 Cert.ReferenceIdeal.Read.val_main_v0
      Cert.ReferenceIdeal.Read.val_main_call0_v0 Cert.ReferenceIdeal.Read.val_main_c
    rfl
  have h14 : W (Proc.devRef .tc main_v14) = Cert.ReferenceIdeal.Read.val_main_v14 (F := Ideal) (m ((c : Thread nD τ).loc main_arg0)) := by
    rw [← hW]; read_back
    unfold Cert.ReferenceIdeal.Read.val_main_v14 Cert.ReferenceIdeal.Read.val_main_v5 Cert.ReferenceIdeal.Read.val_main_v0
      Cert.ReferenceIdeal.Read.val_main_call0_v0 Cert.ReferenceIdeal.Read.val_main_c
    rfl
  have h15 : W (Proc.devRef .tc main_v15) = Cert.ReferenceIdeal.Read.val_main_v15 (F := Ideal) (m ((c : Thread nD τ).loc main_arg0)) := by
    rw [← hW]; read_back
    unfold Cert.ReferenceIdeal.Read.val_main_v15 Cert.ReferenceIdeal.Read.val_main_v6 Cert.ReferenceIdeal.Read.val_main_v0
      Cert.ReferenceIdeal.Read.val_main_call0_v0 Cert.ReferenceIdeal.Read.val_main_c
    rfl
  have h16 : W (Proc.devRef .tc main_v16) = Cert.ReferenceIdeal.Read.val_main_v16 (F := Ideal) (m ((c : Thread nD τ).loc main_arg0)) := by
    rw [← hW]; read_back
    unfold Cert.ReferenceIdeal.Read.val_main_v16 Cert.ReferenceIdeal.Read.val_main_v7 Cert.ReferenceIdeal.Read.val_main_v0
      Cert.ReferenceIdeal.Read.val_main_call0_v0 Cert.ReferenceIdeal.Read.val_main_c
    rfl
  have h17 : W (Proc.devRef .tc main_v17) = Cert.ReferenceIdeal.Read.val_main_v17 (F := Ideal) (m ((c : Thread nD τ).loc main_arg0)) := by
    rw [← hW]; read_back
    unfold Cert.ReferenceIdeal.Read.val_main_v17 Cert.ReferenceIdeal.Read.val_main_v8 Cert.ReferenceIdeal.Read.val_main_v0
      Cert.ReferenceIdeal.Read.val_main_call0_v0 Cert.ReferenceIdeal.Read.val_main_c
    rfl
  have h18 : W (Proc.devRef .tc main_v18) = Cert.ReferenceIdeal.Read.val_main_v18 (F := Ideal) (m ((c : Thread nD τ).loc main_arg0)) := by
    rw [← hW]; read_back
    unfold Cert.ReferenceIdeal.Read.val_main_v18 Cert.ReferenceIdeal.Read.val_main_v9 Cert.ReferenceIdeal.Read.val_main_v0
      Cert.ReferenceIdeal.Read.val_main_call0_v0 Cert.ReferenceIdeal.Read.val_main_c
    rfl
  dsimp only [Matrix.cons_val]
  rw [h10, h11, h12, h13, h14, h15, h16, h17, h18]
  unfold Cert.ReferenceIdeal.Read.val_main_v20 Cert.ReferenceIdeal.Read.val_main_v19
  rfl

end Cert.KernelIdeal.AdderOperands

end
-- ==== Proof.lean ====
/-
  The certificate of the adder layer: a kernel that takes, for every image position and every filter, the negated L1
  distance between the 3 x 3 x 32 patch around the position and the filter, against the same layer written with one
  whole sum.

  Both programs form the patch matrix X (16384 positions by 288 patch entries: zero padding, nine shifted slices
  stacked, one reshape) and the filter matrix W (288 by 32) by the same host operations. The reference then takes
  -(sum over all 288 entries of |X (p, k) - W (k, q)|) in one reduction. The kernel walks the 16384 positions in 32
  blocks of 512, and in each block sums the 288 entries as nine partial sums of 32 added one after the other to zero,
  then subtracts the total from zero. On the extended reals addition is commutative and associative without any
  side condition, so the nine partial sums regroup into the one sum and the two results agree entry by entry; the
  finiteness of the inputs is not needed.

  The frames: each kernel program is host operations, one pipelined region whose body overwrites its output block
  with a pure function of its two input blocks, and one reshape; the library's launch theorem runs it, and the two
  argument arrays are written by nothing. The reference is host operations only, and its frame is its run with the
  result dropped. The idealization rewrote no operation, so there is nothing to preserve.
-/
import proofs.«151672_j1795296330278_1_alg».proof.Defs
import proofs.«151672_j1795296330278_1_alg».proof.Proof.Gen.Kernel
import proofs.«151672_j1795296330278_1_alg».proof.Proof.Gen.Kernel.Skeleton
import proofs.«151672_j1795296330278_1_alg».proof.Proof.Gen.Kernel.Launch
import proofs.«151672_j1795296330278_1_alg».proof.Proof.Gen.Kernel.Points
import proofs.«151672_j1795296330278_1_alg».proof.Proof.Gen.KernelIdeal
import proofs.«151672_j1795296330278_1_alg».proof.Proof.Gen.KernelIdeal.Skeleton
import proofs.«151672_j1795296330278_1_alg».proof.Proof.Gen.KernelIdeal.Launch
import proofs.«151672_j1795296330278_1_alg».proof.Proof.Gen.KernelIdeal.Points
import proofs.«151672_j1795296330278_1_alg».proof.Proof.Gen.ReferenceIdeal
import proofs.«151672_j1795296330278_1_alg».proof.Proof.Gen.Pre_finite_inputs
import proofs.«151672_j1795296330278_1_alg».proof.Proof.Gen.ReferenceIdeal.Run
import proofs.«151672_j1795296330278_1_alg».proof.Proof.Gen.ReferenceIdeal.Read
import proofs.«151672_j1795296330278_1_alg».proof.Proof.FrameBits
import proofs.«151672_j1795296330278_1_alg».proof.Proof.FrameIdeal
import proofs.«151672_j1795296330278_1_alg».proof.Proof.AdderKernel
import proofs.«151672_j1795296330278_1_alg».proof.Proof.AdderReference
import proofs.«151672_j1795296330278_1_alg».proof.Proof.AdderOperands
import Idealize.ShloMosaic.Adequacy
import Idealize.ShloMosaic.Init

noncomputable section

namespace Cert.Proof

open Idealize.ShloMosaic Idealize.SL.Sem

/-- The reference's result, from a memory that agrees with the kernel program's on the two arguments, is the reshaped
    layer's value of the kernel program's patch and filter matrices. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v30 (F := Ideal) m' c
      = shapeCast Cert.KernelIdeal.S4x64x64x32 (Cert.Adder.adder 16384 (Cert.KernelIdeal.AdderKernel.patches m c) (Cert.KernelIdeal.AdderKernel.filters m c)) Cert.KernelIdeal.Facts₀.shapeCasts_S16384x32_S4x64x64x32 := by
  rw [Cert.ReferenceIdeal.Read.val_main_v30_eq, h0, h1]
  unfold Cert.ReferenceIdeal.Read.val_main_v30
  rw [Cert.ReferenceIdeal.AdderReference.v29_eq, ← Cert.KernelIdeal.AdderOperands.patch_eq, ← Cert.KernelIdeal.AdderOperands.filter_eq]

theorem claim : Cert.Claim := ⟨Cert.Kernel.Gen.facts, Cert.KernelIdeal.Gen.facts, Cert.ReferenceIdeal.Gen.facts, Cert.Pre_finite_inputs.Gen.facts,
  fun m ρ _ => Cert.Kernel.Frm.frame m ρ,
  fun m ρ _ => Cert.KernelIdeal.Frm.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => shapeCast Cert.KernelIdeal.S4x64x64x32 (Cert.Adder.adder 16384 (Cert.KernelIdeal.AdderKernel.patches m c) (Cert.KernelIdeal.AdderKernel.filters m c)) Cert.KernelIdeal.Facts₀.shapeCasts_S16384x32_S4x64x64x32,
      Cert.KernelIdeal.AdderKernel.run m ρ,
      (θ_run Cert.ReferenceIdeal.defs _ _).mono
        (fun _ h c => ⟨((h c).1).trans (reference_result m m' c (hagree c).1 (hagree c).2), (h c).2⟩)
        (Cert.ReferenceIdeal.Value.run (F := Ideal) m' ρ')⟩⟩

end Cert.Proof

end
